-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S8x2048x4096 .f32) (main_arg1 : FVec F S4096x4096 .f32) (main_arg2 : FVec F S4096 .f32) (main_arg3 : FVec F S16x4096 .f32) (main_arg4 : FVec F S4096x16 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16384x4096 : Shape := ⟨2, ![16384, 4096]⟩
abbrev S1x4096 : Shape := ⟨2, ![1, 4096]⟩
abbrev S1024x512 : Shape := ⟨2, ![1024, 512]⟩
abbrev S16x512 : Shape := ⟨2, ![16, 512]⟩
abbrev S1024x16 : Shape := ⟨2, ![1024, 16]⟩
abbrev S1x1024 : Shape := ⟨2, ![1, 1024]⟩
abbrev S1024x1024 : Shape := ⟨2, ![1024, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S8x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S16x512, .f32⟩
  | .local _ .vmem, ⟨5, _⟩ => ⟨S16x512, .f32⟩
  | .local _ .vmem, ⟨6, _⟩ => ⟨S1024x16, .f32⟩
  | .local _ .vmem, ⟨7, _⟩ => ⟨S1024x16, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x2048x4096_S16384x4096 : S8x2048x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x512_S1024x512_S1024x1024_1_1_0_0_n_n_wf : DotDims.WF S1024x512 S1024x512 S1024x1024 [1] [1] [0] [0] [] []
  dot_S1024x512_S16x512_S1024x16_1_1_0_0_n_n_wf : DotDims.WF S1024x512 S16x512 S1024x16 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x4096.size a
  hwx0_5 : ∀ i : grid0.Coords, EltTy.bits .f32 = 32 ∨ (Rect.block (s := S16384x4096) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S16x512_S1024x16_1_1_0_0_n_n : DotDims S1024x512 S16x512 S1024x16 where
  lhsContracting := [1]
  rhsContracting := [1]
  lhsNonContracting := [0]
  rhsNonContracting := [0]
  lhsBatch := []
  rhsBatch := []
  wf := dot_S1024x512_S16x512_S1024x16_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S8x2048x16 : Shape := ⟨3, ![8, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8x2048x4096, .f32⟩
  | .hbm, ⟨6, _⟩ => ⟨S1x1x4096, .f32⟩
  | .hbm, ⟨7, _⟩ => ⟨S8x2048x4096, .f32⟩
  | .hbm, ⟨8, _⟩ => ⟨S8x2048x4096, .f32⟩
  | .hbm, ⟨9, _⟩ => ⟨S8x2048x16, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x4096_S4096x4096_S8x2048x4096_2_1_01_0_n_n_wf : DotDims.WF S8x2048x4096 S4096x4096 S8x2048x4096 [2] [1] [0, 1] [0] [] []
  dot_S8x2048x4096_S16x4096_S8x2048x16_2_1_01_0_n_n_wf : DotDims.WF S8x2048x4096 S16x4096 S8x2048x16 [2] [1] [0, 1] [0] [] []
  dot_S8x2048x16_S4096x16_S8x2048x4096_2_1_01_0_n_n_wf : DotDims.WF S8x2048x16 S4096x16 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def dot_S8x2048x4096_S16x4096_S8x2048x16_2_1_01_0_n_n : DotDims S8x2048x4096 S16x4096 S8x2048x16 where
  lhsContracting := [2]
  rhsContracting := [1]
  lhsNonContracting := [0, 1]
  rhsNonContracting := [0]
  lhsBatch := []
  rhsBatch := []
  wf := dot_S8x2048x4096_S16x4096_S8x2048x16_2_1_01_0_n_n_wf
def dot_S8x2048x16_S4096x16_S8x2048x4096_2_1_01_0_n_n : DotDims S8x2048x16 S4096x16 S8x2048x4096 where
  lhsContracting := [2]
  rhsContracting := [1]
  lhsNonContracting := [0, 1]
  rhsNonContracting := [0]
  lhsBatch := []
  rhsBatch := []
  wf := dot_S8x2048x16_S4096x16_S8x2048x4096_2_1_01_0_n_n_wf

class Facts : Prop extends Facts₀ where

variable [Facts]
-- ==== Proof.Pieces.lean ====
/-
  What one run of the kernel body leaves behind, as values of what it was given (at any float instance).

  The body keeps two running totals in scratch memory: `base` (1024 × 1024, the weight's product) and `low` (1024 × 16,
  the adapter's down-projection). At the first contraction step it stores zeros and then adds the step's two products
  to them; at every later step it adds the step's two products to what the step before left; at the last step it also
  writes the output block from the two totals, the up-projection factor and the bias. Each of these is ONE whole-buffer
  store whose payload reads whole buffers, so what a buffer holds afterwards is that payload of the buffers' contents.
-/
import proofs.«153549_j58033598104232_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## The first contraction step: zeros, then the step's products -/

/-- `base` after the first step: the zero block plus `x · wᵀ` of the step's blocks. -/
theorem base_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i) (x0 : Vec F S1024x512 .f32) (x1 : Vec F S1024x512 .f32) (x2 : Vec F S16x512 .f32) (x3 : Vec F S1024x16 .f32) (x4 : Vec F S1x1024 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x512) hz]

/-- `low` after the first step: the zero block plus `x · Aᵀ` of the step's blocks. -/
theorem low_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i) (x0 : Vec F S1024x512 .f32) (x1 : Vec F S1024x512 .f32) (x2 : Vec F S16x512 .f32) (x3 : Vec F S1024x16 .f32) (x4 : Vec F S1x1024 .f32) :
    sout0_A_1 c i arg3 harg3 arg4 harg4 arg5 harg5 arg6 harg6 arg7 harg7 arg8 harg8 arg9 harg9 arg10 harg10 hc0 hc1 x0 x1 x2 x3 x4 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz, View.readCov_unit_zero (S := S1024x16) _ hz]
  simp only [View.readAt_eq_ld, harg3.read_unread, harg5.read_unread, View.ld_unit_zero (S := S1024x512) hz,
    View.ld_unit_zero (S := S16x512) hz]

/-! ## A middle step: the step's products added to what the step before left -/

theorem base_next (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg9.read_unread,
    View.ld_unit_zero (S := S1024x512) hz, View.ld_unit_zero (S := S1024x1024) hz]

theorem low_next (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg5.read_unread, harg10.read_unread,
    View.ld_unit_zero (S := S1024x512) hz, View.ld_unit_zero (S := S16x512) hz, View.ld_unit_zero (S := S1024x16) hz]

/-! ## The last step: the same update, and the output block from the two totals -/

theorem base_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg9.read_unread,
    View.ld_unit_zero (S := S1024x512) hz, View.ld_unit_zero (S := S1024x1024) hz]

theorem low_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg5.read_unread, harg10.read_unread,
    View.ld_unit_zero (S := S1024x512) hz, View.ld_unit_zero (S := S16x512) hz, View.ld_unit_zero (S := S1024x16) hz]

/-- The output block the last step stores: from the UPDATED totals (read back after this step's stores), the
    up-projection factor's block `x3` and the bias block `x4`. -/
theorem out_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    out0_C_5 c i arg3 harg3 arg4 harg4 arg5 harg5 arg6 harg6 arg7 harg7 arg8 harg8 arg9 harg9 arg10 harg10 hc0 hc1 x0 x1 x2 x3 x4 xs0 xs1 = k0_pay6 x3 (k0_pay5 x0 x2 xs1) (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread,
    harg7.read_unread, harg9.read_unread, harg10.read_unread,
    View.readCov_unit_zero (S := S1024x16) _ hz, View.readCov_unit_zero (S := S1024x1024) _ hz,
    View.ld_unit_zero (S := S1024x512) hz, View.ld_unit_zero (S := S16x512) hz, View.ld_unit_zero (S := S1024x16) hz,
    View.ld_unit_zero (S := S1024x1024) hz, View.ld_unit_zero (S := S1x1024) hz]

end Cert.KernelIdeal.Pieces

end
-- ==== Proof.Steps.lean ====
/-
  The two running totals and the output block, grid point by grid point (at any float instance).

  Grid points are visited with the contraction step innermost: eight consecutive points `8g … 8g + 7` work on one output
  block. At the first of them (`t % 8 = 0`) each total is the step's product added to zeros; at each later one it is the
  step's product added to what the point before left; at the last (`t % 8 = 7`) the output block is built from the
  two totals as that same point leaves them.
-/
import proofs.«153549_j58033598104232_1_alg».proof.Proof.Pieces

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ)

/-! ## The staged blocks at a point, by their literal shapes -/

/-- The activation block (1024 rows × 512 contraction coordinates). -/
abbrev xb (c : Dev nD) (t : Fin cfg0.N) : Vec F S1024x512 .f32 := iblk m c 0 t
/-- The weight block (1024 output features × 512). -/
abbrev wb (c : Dev nD) (t : Fin cfg0.N) : Vec F S1024x512 .f32 := iblk m c 1 t
/-- The down-projection factor's block (16 × 512). -/
abbrev ab (c : Dev nD) (t : Fin cfg0.N) : Vec F S16x512 .f32 := iblk m c 2 t
/-- The up-projection factor's block (1024 output features × 16). -/
abbrev ub (c : Dev nD) (t : Fin cfg0.N) : Vec F S1024x16 .f32 := iblk m c 3 t
/-- The bias block (1 × 1024). -/
abbrev biasb (c : Dev nD) (t : Fin cfg0.N) : Vec F S1x1024 .f32 := iblk m c 4 t

/-- `base` after point `n`. -/
abbrev baseAt (c : Dev nD) (n : ℕ) (h : n < cfg0.N) : Vec F S1024x1024 .f32 := (outsAt0 m c n h).2.1
/-- `low` after point `n`. -/
abbrev lowAt (c : Dev nD) (n : ℕ) (h : n < cfg0.N) : Vec F S1024x16 .f32 := (outsAt0 m c n h).2.2
/-- The output's staging buffer after point `n`. -/
abbrev outAt (c : Dev nD) (n : ℕ) (h : n < cfg0.N) : Vec F S1024x1024 .f32 := (outsAt0 m c n h).1

/-! ## The first contraction step of a block -/

theorem base_reset (c : Dev nD) (t : Fin cfg0.N) (h0 : t.val % 8 = 0) :
    baseAt m c t.val t.isLt = k0_pay4 (xb m c t) (wb m c t) (k0_pay1 (F := F)) := by
  have h1 : ¬t.val % 8 = 7 := by omega
  show (outsAt0 m c t.val t.isLt).2.1 = _
  rw [outsAt0_A m c t h0 h1]
  dsimp only
  exact Pieces.base_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

theorem low_reset (c : Dev nD) (t : Fin cfg0.N) (h0 : t.val % 8 = 0) :
    lowAt m c t.val t.isLt = k0_pay5 (xb m c t) (ab m c t) (k0_pay2 (F := F)) := by
  have h1 : ¬t.val % 8 = 7 := by omega
  show (outsAt0 m c t.val t.isLt).2.2 = _
  rw [outsAt0_A m c t h0 h1]
  dsimp only
  exact Pieces.low_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

/-! ## A later contraction step -/

theorem base_step (c : Dev nD) (t : Fin cfg0.N) (h0 : ¬t.val % 8 = 0) :
    baseAt m c t.val t.isLt
      = k0_pay4 (xb m c t) (wb m c t) (baseAt m c (t.val - 1) (Nat.lt_of_le_of_lt (Nat.sub_le _ _) t.isLt)) := by
  show (outsAt0 m c t.val t.isLt).2.1 = _
  by_cases h1 : t.val % 8 = 7
  · rw [outsAt0_C m c t h0 h1]
    dsimp only
    exact Pieces.base_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Pieces.base_next c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

theorem low_step (c : Dev nD) (t : Fin cfg0.N) (h0 : ¬t.val % 8 = 0) :
    lowAt m c t.val t.isLt
      = k0_pay5 (xb m c t) (ab m c t) (lowAt m c (t.val - 1) (Nat.lt_of_le_of_lt (Nat.sub_le _ _) t.isLt)) := by
  show (outsAt0 m c t.val t.isLt).2.2 = _
  by_cases h1 : t.val % 8 = 7
  · rw [outsAt0_C m c t h0 h1]
    dsimp only
    exact Pieces.low_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Pieces.low_next c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-! ## The last contraction step: the output block -/

/-- The output block from the totals as THIS point leaves them. -/
theorem out_last_step (c : Dev nD) (t : Fin cfg0.N) (h1 : t.val % 8 = 7) :
    outAt m c t.val t.isLt = k0_pay6 (ub m c t) (lowAt m c t.val t.isLt) (baseAt m c t.val t.isLt) (biasb m c t) := by
  have h0 : ¬t.val % 8 = 0 := by omega
  rw [low_step m c t h0, base_step m c t h0]
  show (outsAt0 m c t.val t.isLt).1 = _
  rw [outsAt0_C m c t h0 h1]
  dsimp only
  exact Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Steps

end
-- ==== Proof.Spec.lean ====
/-
  The mathematics of a linear layer with a low-rank adapter, free of any program.

  For an activation matrix `x` (rows × 4096), a weight `w` (4096 × 4096, one row per output feature), a bias `b`,
  and the adapter's two thin factors `A` (16 × 4096) and `B` (4096 × 16), the layer's value at row `r` and output
  feature `o` is

      (∑_d x[r,d]·w[o,d] + b[o]) + 2 · ∑_ρ (∑_d x[r,d]·A[ρ,d]) · B[o,ρ].

  Over the extended reals addition is commutative and associative (an infinity of either sign absorbs in a fixed way),
  so a sum over the 4096 contraction coordinates may be taken stretch by stretch: eight stretches of 512, each added to
  a running total that starts from zero, give the same sum. Nothing here needs the summands finite.

  Arrays are read at NATURAL-NUMBER coordinates (`rd1`, `rd2`, `rd3`: the coordinate taken modulo the extent, hence
  itself whenever it is in range), so that block arithmetic (block index × block size + offset) is arithmetic on ℕ.
-/
import Idealize.ShloMosaic.PureOps.Ideal
import Idealize.ShloMosaic.Lib.ValueIdx
import Mathlib.Algebra.BigOperators.Fin
import Mathlib.Algebra.BigOperators.Group.Finset.Basic

noncomputable section

namespace Cert.LowRank

open Idealize.ShloMosaic Idealize.ShloMosaic.ValueIdx Finset

/-! ## Natural-number coordinates -/

/-- The natural number `k` as a coordinate below `N`: `k` itself when `k < N`. -/
def nfin (N : ℕ) [NeZero N] (k : ℕ) : Fin N := ⟨k % N, Nat.mod_lt k (Nat.pos_of_neZero N)⟩

theorem nfin_val {N : ℕ} [NeZero N] {k : ℕ} (h : k < N) : (nfin N k).val = k := Nat.mod_eq_of_lt h

theorem nfin_self {N : ℕ} [NeZero N] (i : Fin N) : nfin N i.val = i := Fin.ext (Nat.mod_eq_of_lt i.isLt)

theorem nfin_eq {N : ℕ} [NeZero N] {k : ℕ} (i : Fin N) (h : k = i.val) : nfin N k = i := by
  subst h; exact nfin_self i

/-- A vector read at a natural-number coordinate. -/
def rd1 {a : ℕ} [NeZero a] (v : (⟨1, ![a]⟩ : Shape).Idx → EReal) (o : ℕ) : EReal := v (ix1 (nfin a o))
/-- A matrix read at natural-number coordinates. -/
def rd2 {a b : ℕ} [NeZero a] [NeZero b] (M : (⟨2, ![a, b]⟩ : Shape).Idx → EReal) (r d : ℕ) : EReal :=
  M (ix2 (nfin a r) (nfin b d))
/-- A rank-3 array read at natural-number coordinates. -/
def rd3 {a b c : ℕ} [NeZero a] [NeZero b] [NeZero c] (T : (⟨3, ![a, b, c]⟩ : Shape).Idx → EReal) (i j d : ℕ) : EReal :=
  T (ix3 (nfin a i) (nfin b j) (nfin c d))

theorem rd2_ix {a b : ℕ} [NeZero a] [NeZero b] (M : (⟨2, ![a, b]⟩ : Shape).Idx → EReal) (p : Fin a) (q : Fin b) :
    M (ix2 p q) = rd2 M p.val q.val := by
  unfold rd2; rw [nfin_self, nfin_self]

theorem rd1_ix {a : ℕ} [NeZero a] (v : (⟨1, ![a]⟩ : Shape).Idx → EReal) (p : Fin a) : v (ix1 p) = rd1 v p.val := by
  unfold rd1; rw [nfin_self]

theorem rd3_ix {a b c : ℕ} [NeZero a] [NeZero b] [NeZero c] (T : (⟨3, ![a, b, c]⟩ : Shape).Idx → EReal)
    (p : Fin a) (q : Fin b) (r : Fin c) : T (ix3 p q r) = rd3 T p.val q.val r.val := by
  unfold rd3; rw [nfin_self, nfin_self, nfin_self]

/-! ## Arrays at indices whose coordinates are known -/

/-- A rank-3 array of 8 × 2048 rows of 4096 as a matrix of 16384 rows: row `r` is `x[r / 2048, r % 2048, ·]`. -/
def rows (x : (⟨3, ![8, 2048, 4096]⟩ : Shape).Idx → EReal) (r d : ℕ) : EReal := rd3 x (r / 2048) (r % 2048) d

/-- Row `2048·i₀ + i₁` of the flattened array at `k` is `x[i₀, i₁, k]`. -/
theorem rows_at (x : (⟨3, ![8, 2048, 4096]⟩ : Shape).Idx → EReal) (i0 : Fin 8) (i1 : Fin 2048) (k : Fin 4096)
    (j : (⟨3, ![8, 2048, 4096]⟩ : Shape).Idx) (h0 : (j 0).val = i0.val) (h1 : (j 1).val = i1.val) (h2 : (j 2).val = k.val) :
    x j = rows x (i0.val * 2048 + i1.val) k.val := by
  unfold rows rd3
  refine congrArg x (funext fun a => Fin.ext ?_)
  have hi0 := i0.isLt
  have hi1 := i1.isLt
  have hk := k.isLt
  match a with
  | ⟨0, _⟩ => show (j 0).val = ((i0.val * 2048 + i1.val) / 2048) % 8; rw [h0]; omega
  | ⟨1, _⟩ => show (j 1).val = ((i0.val * 2048 + i1.val) % 2048) % 2048; rw [h1]; omega
  | ⟨2, _⟩ => show (j 2).val = k.val % 4096; rw [h2]; omega

/-- A matrix at an index whose coordinates are known is the matrix read at those natural numbers. -/
theorem mat_at {a b : ℕ} [NeZero a] [NeZero b] (M : (⟨2, ![a, b]⟩ : Shape).Idx → EReal) (j : (⟨2, ![a, b]⟩ : Shape).Idx)
    (r d : ℕ) (hr : r < a) (hd : d < b) (h0 : (j 0).val = r) (h1 : (j 1).val = d) : M j = rd2 M r d := by
  unfold rd2
  refine congrArg M (funext fun c => Fin.ext ?_)
  match c with
  | ⟨0, _⟩ => show (j 0).val = r % a; rw [h0, Nat.mod_eq_of_lt hr]
  | ⟨1, _⟩ => show (j 1).val = d % b; rw [h1, Nat.mod_eq_of_lt hd]

/-- The same for a vector. -/
theorem vec_at {a : ℕ} [NeZero a] (v : (⟨1, ![a]⟩ : Shape).Idx → EReal) (j : (⟨1, ![a]⟩ : Shape).Idx)
    (o : ℕ) (ho : o < a) (h0 : (j 0).val = o) : v j = rd1 v o := by
  unfold rd1
  refine congrArg v (funext fun c => Fin.ext ?_)
  match c with
  | ⟨0, _⟩ => show (j 0).val = o % a; rw [h0, Nat.mod_eq_of_lt ho]

/-! ## A row product over a stretch of the contraction axis -/

/-- `∑_{k < len} P[r, lo + k] · Q[o, lo + k]`: row `r` of `P` against row `o` of `Q` over the stretch of `len`
    contraction coordinates from `lo`. -/
def dotSeg (P Q : ℕ → ℕ → EReal) (r o lo len : ℕ) : EReal := ∑ k ∈ range len, P r (lo + k) * Q o (lo + k)

/-- Consecutive stretches add up: `n` stretches of `len` are the one stretch of `n · len`. -/
theorem sum_dotSeg (P Q : ℕ → ℕ → EReal) (r o len : ℕ) :
    ∀ n : ℕ, ∑ s ∈ range n, dotSeg P Q r o (s * len) len = dotSeg P Q r o 0 (n * len)
  | 0 => by simp [dotSeg]
  | n + 1 => by
    rw [sum_range_succ, sum_dotSeg P Q r o len n, Nat.succ_mul]
    unfold dotSeg
    rw [sum_range_add]
    simp only [Nat.zero_add]

/-- A `Fin`-indexed row product (what a matrix unit's contraction reads as) in natural-number coordinates. -/
theorem sum_fin_eq_dotSeg {a b n : ℕ} [NeZero a] [NeZero b] [NeZero n]
    (L : (⟨2, ![a, n]⟩ : Shape).Idx → EReal) (R : (⟨2, ![b, n]⟩ : Shape).Idx → EReal) (p : Fin a) (q : Fin b) :
    ∑ k : Fin n, L (ix2 p k) * R (ix2 q k) = dotSeg (rd2 L) (rd2 R) p.val q.val 0 n := by
  unfold dotSeg
  rw [Finset.sum_range]
  refine Finset.sum_congr rfl fun k _ => ?_
  rw [Nat.zero_add, rd2_ix L p k, rd2_ix R q k]

/-! ## The layer -/

/-- `2.0`, the adapter's scale `alpha / rank = 32 / 16`, as both programs spell it. -/
abbrev two : EReal := Ideal.ofBits .f32 0x40000000#32

/-- The layer at row `r` and output feature `o`, from the arrays read at natural-number coordinates:
    `X` the activations (rows × 4096), `W` the weight, `bias` the bias, `A` and `B` the adapter's factors. -/
def layer (X W : ℕ → ℕ → EReal) (bias : ℕ → EReal) (A B : ℕ → ℕ → EReal) (r o : ℕ) : EReal :=
  (dotSeg X W r o 0 4096 + bias o) + two * ∑ ρ ∈ range 16, dotSeg X A r ρ 0 4096 * B o ρ

/-- The same with each contraction taken in eight stretches of 512 added to a running total: what a kernel that
    blocks the contraction axis accumulates. -/
theorem layer_blocked (X W : ℕ → ℕ → EReal) (bias : ℕ → EReal) (A B : ℕ → ℕ → EReal) (r o : ℕ) :
    (∑ s ∈ range 8, dotSeg X W r o (s * 512) 512 + bias o)
        + two * ∑ ρ ∈ range 16, (∑ s ∈ range 8, dotSeg X A r ρ (s * 512) 512) * B o ρ
      = layer X W bias A B r o := by
  unfold layer
  rw [sum_dotSeg X W r o 512 8]
  simp only [sum_dotSeg X A r _ 512 8]

/-! ## The layer over the (8, 2048, 4096) result array -/

/-- The layer's value as an array over (8, 2048, 4096): at (i₀, i₁, i₂), row `2048·i₀ + i₁` and feature `i₂`. -/
def result (x : (⟨3, ![8, 2048, 4096]⟩ : Shape).Idx → EReal) (w : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal) : (⟨3, ![8, 2048, 4096]⟩ : Shape).Idx → EReal :=
  fun i => layer (rows x) (rd2 w) (rd1 b) (rd2 A) (rd2 B) ((i 0).val * 2048 + (i 1).val) (i 2).val

theorem result_ix3 (x : (⟨3, ![8, 2048, 4096]⟩ : Shape).Idx → EReal) (w : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal) (i0 : Fin 8) (i1 : Fin 2048) (i2 : Fin 4096) :
    result x w b A B (ix3 i0 i1 i2) = layer (rows x) (rd2 w) (rd1 b) (rd2 A) (rd2 B) (i0.val * 2048 + i1.val) i2.val := rfl

end Cert.LowRank

end
-- ==== Proof.Payload.lean ====
/-
  The body's arithmetic read at one index, over the extended reals.

  Each of the body's three matrix products contracts the LAST axis of both operands (`a · bᵀ`), starts from a zero
  accumulator, and takes its operands through a change of float format that is the identity here; so at (p, q) it is
  `∑ₖ a[p,k] · b[q,k]`. The two running totals are `previous + product`; the output block is
  `(base + bias row) + 2 · (low · Bᵀ)`.
-/
import proofs.«153549_j58033598104232_1_alg».proof.Proof.Gen.KernelIdeal.Skeleton
import proofs.«153549_j58033598104232_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen Cert.LowRank

/-! ## Which operand coordinates a product reads -/

theorem lhs_xw_0 (j : S1024x1024.Idx) (q : dot_S1024x512_S1024x512_S1024x1024_1_1_0_0_n_n.contr.Idx) :
    (dot_S1024x512_S1024x512_S1024x1024_1_1_0_0_n_n.lhsIdx j q 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_xw_1 (j : S1024x1024.Idx) (q : dot_S1024x512_S1024x512_S1024x1024_1_1_0_0_n_n.contr.Idx) :
    (dot_S1024x512_S1024x512_S1024x1024_1_1_0_0_n_n.lhsIdx j q 1).val = (q ⟨0, by decide⟩).val :=
  dot_S1024x512_S1024x512_S1024x1024_1_1_0_0_n_n.lhsIdx_val_of_single rfl j q
theorem rhs_xw_0 (j : S1024x1024.Idx) (q : dot_S1024x512_S1024x512_S1024x1024_1_1_0_0_n_n.contr.Idx) :
    (dot_S1024x512_S1024x512_S1024x1024_1_1_0_0_n_n.rhsIdx j q 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_xw_1 (j : S1024x1024.Idx) (q : dot_S1024x512_S1024x512_S1024x1024_1_1_0_0_n_n.contr.Idx) :
    (dot_S1024x512_S1024x512_S1024x1024_1_1_0_0_n_n.rhsIdx j q 1).val = (q ⟨0, by decide⟩).val :=
  dot_S1024x512_S1024x512_S1024x1024_1_1_0_0_n_n.rhsIdx_val_of_single rfl j q

theorem lhs_xa_0 (j : S1024x16.Idx) (q : dot_S1024x512_S16x512_S1024x16_1_1_0_0_n_n.contr.Idx) :
    (dot_S1024x512_S16x512_S1024x16_1_1_0_0_n_n.lhsIdx j q 0).val = (j 0).val := by
  unfold DotDims.lhsIdx
  rw [dif_neg (show ¬(0 : Fin S1024x512.rank) ∈ dot_S1024x512_S16x512_S1024x16_1_1_0_0_n_n.lhsBatch by decide), dif_pos (show (0 : Fin S1024x512.rank) ∈ dot_S1024x512_S16x512_S1024x16_1_1_0_0_n_n.lhsNonContracting by decide)]
  rfl
theorem lhs_xa_1 (j : S1024x16.Idx) (q : dot_S1024x512_S16x512_S1024x16_1_1_0_0_n_n.contr.Idx) :
    (dot_S1024x512_S16x512_S1024x16_1_1_0_0_n_n.lhsIdx j q 1).val = (q ⟨0, by decide⟩).val :=
  dot_S1024x512_S16x512_S1024x16_1_1_0_0_n_n.lhsIdx_val_of_single rfl j q
theorem rhs_xa_0 (j : S1024x16.Idx) (q : dot_S1024x512_S16x512_S1024x16_1_1_0_0_n_n.contr.Idx) :
    (dot_S1024x512_S16x512_S1024x16_1_1_0_0_n_n.rhsIdx j q 0).val = (j 1).val := by
  unfold DotDims.rhsIdx
  rw [dif_neg (show ¬(0 : Fin S16x512.rank) ∈ dot_S1024x512_S16x512_S1024x16_1_1_0_0_n_n.rhsBatch by decide), dif_pos (show (0 : Fin S16x512.rank) ∈ dot_S1024x512_S16x512_S1024x16_1_1_0_0_n_n.rhsNonContracting by decide)]
  rfl
theorem rhs_xa_1 (j : S1024x16.Idx) (q : dot_S1024x512_S16x512_S1024x16_1_1_0_0_n_n.contr.Idx) :
    (dot_S1024x512_S16x512_S1024x16_1_1_0_0_n_n.rhsIdx j q 1).val = (q ⟨0, by decide⟩).val :=
  dot_S1024x512_S16x512_S1024x16_1_1_0_0_n_n.rhsIdx_val_of_single rfl j q

theorem lhs_lb_0 (j : S1024x1024.Idx) (q : dot_S1024x16_S1024x16_S1024x1024_1_1_0_0_n_n.contr.Idx) :
    (dot_S1024x16_S1024x16_S1024x1024_1_1_0_0_n_n.lhsIdx j q 0).val = (j 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem lhs_lb_1 (j : S1024x1024.Idx) (q : dot_S1024x16_S1024x16_S1024x1024_1_1_0_0_n_n.contr.Idx) :
    (dot_S1024x16_S1024x16_S1024x1024_1_1_0_0_n_n.lhsIdx j q 1).val = (q ⟨0, by decide⟩).val :=
  dot_S1024x16_S1024x16_S1024x1024_1_1_0_0_n_n.lhsIdx_val_of_single rfl j q
theorem rhs_lb_0 (j : S1024x1024.Idx) (q : dot_S1024x16_S1024x16_S1024x1024_1_1_0_0_n_n.contr.Idx) :
    (dot_S1024x16_S1024x16_S1024x1024_1_1_0_0_n_n.rhsIdx j q 0).val = (j 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem rhs_lb_1 (j : S1024x1024.Idx) (q : dot_S1024x16_S1024x16_S1024x1024_1_1_0_0_n_n.contr.Idx) :
    (dot_S1024x16_S1024x16_S1024x1024_1_1_0_0_n_n.rhsIdx j q 1).val = (q ⟨0, by decide⟩).val :=
  dot_S1024x16_S1024x16_S1024x1024_1_1_0_0_n_n.rhsIdx_val_of_single rfl j q

/-! ## The three products at an index -/

/-- An activation block against a weight block: row `p` of the one times row `q` of the other, over 512 contraction coordinates. -/
theorem matmul_xw (L : FVec Ideal S1024x512 .bf16) (R : FVec Ideal S1024x512 .bf16) (p : Fin 1024) (q : Fin 1024) :
    matmul dot_S1024x512_S1024x512_S1024x1024_1_1_0_0_n_n none L R (constant S1024x1024 .f32 0x00000000#32) (ix2 p q)
      = ∑ k : Fin 512, L (ix2 p k) * R (ix2 q k) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs_xw_0 _ _
    | ⟨1, _⟩ => exact (lhs_xw_1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs_xw_0 _ _
    | ⟨1, _⟩ => exact (rhs_xw_1 _ _).trans hk)
  rw [el, er]

/-- An activation block against a block of the adapter's down-projection factor. -/
theorem matmul_xa (L : FVec Ideal S1024x512 .bf16) (R : FVec Ideal S16x512 .bf16) (p : Fin 1024) (q : Fin 16) :
    matmul dot_S1024x512_S16x512_S1024x16_1_1_0_0_n_n none L R (constant S1024x16 .f32 0x00000000#32) (ix2 p q)
      = ∑ k : Fin 512, L (ix2 p k) * R (ix2 q k) := by
  simp only [matmul]
  rw [Ideal.matmul_constant_zero_apply, ← Equiv.sum_comp (ValueIdx.contrEquiv1 dot_S1024x512_S16x512_S1024x16_1_1_0_0_n_n 512 rfl rfl).symm]
  refine Finset.sum_congr rfl fun k _ => ?_
  have hk := ValueIdx.contrEquiv1_symm_val dot_S1024x512_S16x512_S1024x16_1_1_0_0_n_n 512 rfl rfl k
  have el : dot_S1024x512_S16x512_S1024x16_1_1_0_0_n_n.lhsIdx (ix2 p q) ((ValueIdx.contrEquiv1 dot_S1024x512_S16x512_S1024x16_1_1_0_0_n_n 512 rfl rfl).symm k) = ix2 p k := funext fun a => Fin.ext (by
    match a with
    | ⟨0, _⟩ => exact lhs_xa_0 _ _
    | ⟨1, _⟩ => exact (lhs_xa_1 _ _).trans hk)
  have er : dot_S1024x512_S16x512_S1024x16_1_1_0_0_n_n.rhsIdx (ix2 p q) ((ValueIdx.contrEquiv1 dot_S1024x512_S16x512_S1024x16_1_1_0_0_n_n 512 rfl rfl).symm k) = ix2 q k := funext fun a => Fin.ext (by
    match a with
    | ⟨0, _⟩ => exact rhs_xa_0 _ _
    | ⟨1, _⟩ => exact (rhs_xa_1 _ _).trans hk)
  rw [el, er]

/-- The down-projected activations against a block of the up-projection factor, over the 16 rank coordinates. -/
theorem matmul_lb (L : FVec Ideal S1024x16 .bf16) (R : FVec Ideal S1024x16 .bf16) (p : Fin 1024) (q : Fin 1024) :
    matmul dot_S1024x16_S1024x16_S1024x1024_1_1_0_0_n_n none L R (constant S1024x1024 .f32 0x00000000#32) (ix2 p q)
      = ∑ k : Fin 16, L (ix2 p k) * R (ix2 q k) := by
  simp only [matmul]
  rw [Ideal.matmul_constant_zero_apply, ← Equiv.sum_comp (ValueIdx.contrEquiv1 dot_S1024x16_S1024x16_S1024x1024_1_1_0_0_n_n 16 rfl rfl).symm]
  refine Finset.sum_congr rfl fun k _ => ?_
  have hk := ValueIdx.contrEquiv1_symm_val dot_S1024x16_S1024x16_S1024x1024_1_1_0_0_n_n 16 rfl rfl k
  have el : dot_S1024x16_S1024x16_S1024x1024_1_1_0_0_n_n.lhsIdx (ix2 p q) ((ValueIdx.contrEquiv1 dot_S1024x16_S1024x16_S1024x1024_1_1_0_0_n_n 16 rfl rfl).symm k) = ix2 p k := funext fun a => Fin.ext (by
    match a with
    | ⟨0, _⟩ => exact lhs_lb_0 _ _
    | ⟨1, _⟩ => exact (lhs_lb_1 _ _).trans hk)
  have er : dot_S1024x16_S1024x16_S1024x1024_1_1_0_0_n_n.rhsIdx (ix2 p q) ((ValueIdx.contrEquiv1 dot_S1024x16_S1024x16_S1024x1024_1_1_0_0_n_n 16 rfl rfl).symm k) = ix2 q k := funext fun a => Fin.ext (by
    match a with
    | ⟨0, _⟩ => exact rhs_lb_0 _ _
    | ⟨1, _⟩ => exact (rhs_lb_1 _ _).trans hk)
  rw [el, er]

/-! ## The payloads at an index -/

/-- The zero block the first step stores into `base`. -/
theorem zero_base (j : S1024x1024.Idx) : (k0_pay1 (F := Ideal)) j = 0 := by
  unfold k0_pay1
  simp only [shapeCast_self]
  exact Ideal.ofBits_zero_f32

/-- The zero block the first step stores into `low`. -/
theorem zero_low (j : S1024x16.Idx) : (k0_pay2 (F := Ideal)) j = 0 := by
  unfold k0_pay2
  simp only [shapeCast_self]
  exact Ideal.ofBits_zero_f32

/-- `base`'s update: the previous total plus the step's `x · wᵀ`. -/
theorem base_step_apply (v3 v6 : Vec Ideal S1024x512 .f32) (v10 : Vec Ideal S1024x1024 .f32) (p q : Fin 1024) :
    k0_pay4 v3 v6 v10 (ix2 p q) = v10 (ix2 p q) + ∑ k : Fin 512, v3 (ix2 p k) * v6 (ix2 q k) := by
  unfold k0_pay4 k0_pay3
  simp only [shapeCast_self]
  refine (addf_apply _ _ _).trans ?_
  refine congrArg (v10 (ix2 p q) + ·) ?_
  exact (matmul_xw _ _ p q).trans (Finset.sum_congr rfl fun k _ => rfl)

/-- `low`'s update: the previous total plus the step's `x · Aᵀ`. -/
theorem low_step_apply (v3 : Vec Ideal S1024x512 .f32) (v8 : Vec Ideal S16x512 .f32) (v16 : Vec Ideal S1024x16 .f32)
    (p : Fin 1024) (r : Fin 16) :
    k0_pay5 v3 v8 v16 (ix2 p r) = v16 (ix2 p r) + ∑ k : Fin 512, v3 (ix2 p k) * v8 (ix2 r k) := by
  unfold k0_pay5 k0_pay3
  simp only [shapeCast_self]
  refine (addf_apply _ _ _).trans ?_
  refine congrArg (v16 (ix2 p r) + ·) ?_
  exact (matmul_xa _ _ p r).trans (Finset.sum_congr rfl fun k _ => rfl)

/-- The output block: `(base + bias row) + 2 · (low · Bᵀ)`. -/
theorem out_apply (v25 v27 : Vec Ideal S1024x16 .f32) (v30 : Vec Ideal S1024x1024 .f32) (v31 : Vec Ideal S1x1024 .f32)
    (p q : Fin 1024) :
    k0_pay6 v25 v27 v30 v31 (ix2 p q)
      = (v30 (ix2 p q) + v31 (ix2 (0 : Fin 1) q)) + two * ∑ r : Fin 16, v27 (ix2 p r) * v25 (ix2 q r) := by
  unfold k0_pay6
  simp only [shapeCast_self]
  refine (addf_apply _ _ _).trans ?_
  refine congrArg₂ (· + ·) ?_ ?_
  · refine (addf_apply _ _ _).trans ?_
    refine congrArg (v30 (ix2 p q) + ·) ?_
    exact broadcastTo_1b_ab_apply v31 broadcasts_S1x1024_S1024x1024 p q
  · refine (mulf_apply _ _ _).trans ?_
    refine congrArg (two * ·) ?_
    exact (matmul_lb _ _ p q).trans (Finset.sum_congr rfl fun k _ => rfl)

end Cert.KernelIdeal.Payload

end
-- ==== Proof.Blocks.lean ====
/-
  The blocks the pipeline stages, read at an index, in terms of the program's arguments.

  The grid is 16 × 4 × 8: point `t` has row-block `t / 32`, column-block `t / 8 % 4` and contraction step `t % 8`.
  The activations (flattened to 16384 rows before the call) are staged in blocks of 1024 rows × 512 contraction
  coordinates, the weight likewise (1024 output features × 512), the down-projection factor in blocks of all 16 rank
  rows × 512, the up-projection factor in blocks of 1024 output features × all 16, the bias (a row vector) in blocks of
  1024 features. An element of a block sits in its array at block index × block size + its own coordinate.
-/
import proofs.«153549_j58033598104232_1_alg».proof.Proof.Gen.KernelIdeal.Frame
import proofs.«153549_j58033598104232_1_alg».proof.Proof.Spec
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.LowRank

variable (m : (ℓ : Loc nD τ sig) → Buf (Elt Ideal) ℓ)

/-! ## The arguments -/

abbrev argX (c : Dev nD) : (⟨3, ![8, 2048, 4096]⟩ : Shape).Idx → EReal := m ((c : Thread nD τ).loc main_arg0)
abbrev argW (c : Dev nD) : (⟨2, ![4096, 4096]⟩ : Shape).Idx → EReal := m ((c : Thread nD τ).loc main_arg1)
abbrev argBias (c : Dev nD) : (⟨1, ![4096]⟩ : Shape).Idx → EReal := m ((c : Thread nD τ).loc main_arg2)
abbrev argA (c : Dev nD) : (⟨2, ![16, 4096]⟩ : Shape).Idx → EReal := m ((c : Thread nD τ).loc main_arg3)
abbrev argB (c : Dev nD) : (⟨2, ![4096, 16]⟩ : Shape).Idx → EReal := m ((c : Thread nD τ).loc main_arg4)

/-! ## Where each window's block sits, point by point -/

theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val % 8
    ∧ win0_3.index t (0 : Fin 2) = t.val / 8 % 4 ∧ win0_3.index t (1 : Fin 2) = 0
    ∧ win0_4.index t (0 : Fin 2) = 0 ∧ win0_4.index t (1 : Fin 2) = t.val / 8 % 4
    ∧ win0_5.index t (0 : Fin 2) = t.val / 32 ∧ win0_5.index t (1 : Fin 2) = t.val / 8 % 4 :=
  (by decide +kernel : ∀ t : Fin grid0.N, _)

theorem t_lt (t : Fin cfg0.N) : t.val < 512 := lt_of_lt_of_eq t.isLt (show cfg0.N = 512 from N_0)

/-! ## The two arrays the host makes before the call -/

/-- The activations flattened to 16384 rows. -/
theorem V_flat (c : Dev nD) :
    (V m c main_v0 : S16384x4096.Idx → EReal) = shapeCast S16384x4096 (argX m c) shapeCasts_S8x2048x4096_S16384x4096 := by
  show StableHlo.after hostOps0 (fun b => m (c, b)) (Proc.devRef .tc main_v0) = _
  after_results
  rfl

/-- The bias as a one-row matrix. -/
theorem V_biasRow (c : Dev nD) :
    (V m c main_v1 : S1x4096.Idx → EReal) = shapeCast S1x4096 (argBias m c) shapeCasts_S4096_S1x4096 := by
  show StableHlo.after hostOps0 (fun b => m (c, b)) (Proc.devRef .tc main_v1) = _
  after_results
  rfl

/-- The flattened activations at (r, d) are `x[r / 2048, r % 2048, d]`: the same row-major position. -/
theorem flat_at (x : (⟨3, ![8, 2048, 4096]⟩ : Shape).Idx → EReal) (j : S16384x4096.Idx) (r d : ℕ)
    (hr : r < 16384) (hd : d < 4096) (h0 : (j 0).val = r) (h1 : (j 1).val = d) :
    shapeCast S16384x4096 x shapeCasts_S8x2048x4096_S16384x4096 j = rows x r d := by
  unfold rows rd3
  refine shapeCast_apply x _ j _ ?_
  rw [Shape.rowMajor_val_three, Shape.rowMajor_val_two]
  show ((r / 2048 % 8) * 2048 + (r % 2048 % 2048)) * 4096 + d % 4096 = (j 0).val * 4096 + (j 1).val
  rw [h0, h1]; omega

/-- The one-row bias at (0, o) is `b[o]`. -/
theorem biasRow_at (b : (⟨1, ![4096]⟩ : Shape).Idx → EReal) (j : S1x4096.Idx) (o : ℕ) (ho : o < 4096)
    (h1 : (j 1).val = o) : shapeCast S1x4096 b shapeCasts_S4096_S1x4096 j = rd1 b o := by
  unfold rd1
  refine shapeCast_apply b _ j _ ?_
  rw [Shape.rowMajor_val_one, Shape.rowMajor_val_two]
  have hj0 : (j 0).val = 0 := by have : (j 0).val < 1 := (j 0).isLt; omega
  show o % 4096 = (j 0).val * 4096 + (j 1).val
  rw [hj0, h1]; omega

/-! ## The five input blocks at an index -/

/-- The activation block at point `t`. -/
theorem xblk_apply (c : Dev nD) (t : Fin cfg0.N) (p : Fin 1024) (k : Fin 512) :
    (iblk m c 0 t : Vec Ideal S1024x512 .f32) (ix2 p k)
      = rows (argX m c) (t.val / 32 * 1024 + p.val) (t.val % 8 * 512 + k.val) := by
  obtain ⟨e0, e1, -⟩ := idx_facts t
  have ht := t_lt t
  unfold iblk
  rw [View.read_apply]
  show V m c main_v0 _ = _
  rw [V_flat]
  refine flat_at _ _ _ _ (by omega) (by omega) ?_ ?_
  · show win0_0.index t (0 : Fin 2) * 1024 + 1 * p.val = _; rw [e0]; omega
  · show win0_0.index t (1 : Fin 2) * 512 + 1 * k.val = _; rw [e1]; omega

/-- The weight block at point `t`. -/
theorem wblk_apply (c : Dev nD) (t : Fin cfg0.N) (q : Fin 1024) (k : Fin 512) :
    (iblk m c 1 t : Vec Ideal S1024x512 .f32) (ix2 q k)
      = rd2 (argW m c) (t.val / 8 % 4 * 1024 + q.val) (t.val % 8 * 512 + k.val) := by
  obtain ⟨-, -, e0, e1, -⟩ := idx_facts t
  have ht := t_lt t
  unfold iblk
  rw [View.read_apply]
  show V m c main_arg1 _ = _
  rw [V_main_arg1]
  refine mat_at (argW m c) _ _ _ (by omega) (by omega) ?_ ?_
  · show win0_1.index t (0 : Fin 2) * 1024 + 1 * q.val = _; rw [e0]; omega
  · show win0_1.index t (1 : Fin 2) * 512 + 1 * k.val = _; rw [e1]; omega

/-- The down-projection factor's block at point `t`. -/
theorem ablk_apply (c : Dev nD) (t : Fin cfg0.N) (r : Fin 16) (k : Fin 512) :
    (iblk m c 2 t : Vec Ideal S16x512 .f32) (ix2 r k) = rd2 (argA m c) r.val (t.val % 8 * 512 + k.val) := by
  obtain ⟨-, -, -, -, e0, e1, -⟩ := idx_facts t
  have ht := t_lt t
  unfold iblk
  rw [View.read_apply]
  show V m c main_arg3 _ = _
  rw [V_main_arg3]
  refine mat_at (argA m c) _ _ _ r.isLt (by omega) ?_ ?_
  · show win0_2.index t (0 : Fin 2) * 16 + 1 * r.val = _; rw [e0]; omega
  · show win0_2.index t (1 : Fin 2) * 512 + 1 * k.val = _; rw [e1]; omega

/-- The up-projection factor's block at point `t`. -/
theorem bblk_apply (c : Dev nD) (t : Fin cfg0.N) (q : Fin 1024) (r : Fin 16) :
    (iblk m c 3 t : Vec Ideal S1024x16 .f32) (ix2 q r) = rd2 (argB m c) (t.val / 8 % 4 * 1024 + q.val) r.val := by
  obtain ⟨-, -, -, -, -, -, e0, e1, -⟩ := idx_facts t
  have ht := t_lt t
  unfold iblk
  rw [View.read_apply]
  show V m c main_arg4 _ = _
  rw [V_main_arg4]
  refine mat_at (argB m c) _ _ _ (by omega) r.isLt ?_ ?_
  · show win0_3.index t (0 : Fin 2) * 1024 + 1 * q.val = _; rw [e0]; omega
  · show win0_3.index t (1 : Fin 2) * 16 + 1 * r.val = _; rw [e1]; omega

/-- The bias block at point `t`. -/
theorem biasblk_apply (c : Dev nD) (t : Fin cfg0.N) (q : Fin 1024) :
    (iblk m c 4 t : Vec Ideal S1x1024 .f32) (ix2 (0 : Fin 1) q) = rd1 (argBias m c) (t.val / 8 % 4 * 1024 + q.val) := by
  obtain ⟨-, -, -, -, -, -, -, -, e0, e1, -⟩ := idx_facts t
  have ht := t_lt t
  unfold iblk
  rw [View.read_apply]
  show V m c main_v1 _ = _
  rw [V_biasRow]
  refine biasRow_at _ _ _ (by omega) ?_
  show win0_4.index t (1 : Fin 2) * 1024 + 1 * q.val = _; rw [e1]; omega

end Cert.KernelIdeal.Blocks

end
-- ==== Proof.Accum.lean ====
/-
  The running totals in closed form, and the output block, over the extended reals.

  After point `n` (row-block `n / 32`, column-block `n / 8 % 4`, contraction step `n % 8`) the total `base` holds, at
  (p, q), the products of activation row `1024·(n/32) + p` with weight row `1024·(n/8%4) + q` over the first
  `n % 8 + 1` stretches of 512 contraction coordinates; `low` likewise against the down-projection factor's rows. By
  induction on the point: a first step adds its stretch to zero, a later one to what the point before left — and the
  point before is in the same block of eight, so its row-block and column-block are the same. At a last step all eight
  stretches are in, and the output block is the layer's value.
-/
import proofs.«153549_j58033598104232_1_alg».proof.Proof.Steps
import proofs.«153549_j58033598104232_1_alg».proof.Proof.Payload
import proofs.«153549_j58033598104232_1_alg».proof.Proof.Blocks

noncomputable section

open Idealize.ShloMosaic Idealize.ShloMosaic.TcCoe Idealize.SL.Sem Idealize.ShloMosaic.ValueIdx

namespace Cert.KernelIdeal.Accum

open Cert.KernelIdeal Cert.KernelIdeal.Gen Cert.LowRank Cert.KernelIdeal.Steps Cert.KernelIdeal.Blocks Finset

variable (m : (ℓ : Loc nD τ sig) → Buf (Elt Ideal) ℓ)

/-! ## The arguments at natural-number coordinates -/

abbrev Xn (c : Dev nD) : ℕ → ℕ → EReal := rows (argX m c)
abbrev Wn (c : Dev nD) : ℕ → ℕ → EReal := rd2 (argW m c)
abbrev An (c : Dev nD) : ℕ → ℕ → EReal := rd2 (argA m c)
abbrev Un (c : Dev nD) : ℕ → ℕ → EReal := rd2 (argB m c)
abbrev biasn (c : Dev nD) : ℕ → EReal := rd1 (argBias m c)

/-! ## One step's products -/

/-- The step's `x · wᵀ` at (p, q): the stretch `512·(t % 8) …` of the two rows. -/
theorem xw_dot (c : Dev nD) (t : Fin cfg0.N) (p q : Fin 1024) :
    ∑ k : Fin 512, xb m c t (ix2 p k) * wb m c t (ix2 q k)
      = dotSeg (Xn m c) (Wn m c) (t.val / 32 * 1024 + p.val) (t.val / 8 % 4 * 1024 + q.val) (t.val % 8 * 512) 512 := by
  unfold dotSeg
  rw [Finset.sum_range]
  refine Finset.sum_congr rfl fun k _ => ?_
  exact congrArg₂ (· * ·) (xblk_apply m c t p k) (wblk_apply m c t q k)

/-- The step's `x · Aᵀ` at (p, r). -/
theorem xa_dot (c : Dev nD) (t : Fin cfg0.N) (p : Fin 1024) (r : Fin 16) :
    ∑ k : Fin 512, xb m c t (ix2 p k) * ab m c t (ix2 r k)
      = dotSeg (Xn m c) (An m c) (t.val / 32 * 1024 + p.val) r.val (t.val % 8 * 512) 512 := by
  unfold dotSeg
  rw [Finset.sum_range]
  refine Finset.sum_congr rfl fun k _ => ?_
  exact congrArg₂ (· * ·) (xblk_apply m c t p k) (ablk_apply m c t r k)

/-! ## The totals after each point -/

theorem base_eq (c : Dev nD) : ∀ (n : ℕ) (h : n < cfg0.N) (p q : Fin 1024),
    baseAt m c n h (ix2 p q)
      = ∑ s ∈ range (n % 8 + 1), dotSeg (Xn m c) (Wn m c) (n / 32 * 1024 + p.val) (n / 8 % 4 * 1024 + q.val) (s * 512) 512
  | 0, h, p, q => by
    refine (congrFun (base_reset m c ⟨0, h⟩ rfl) (ix2 p q)).trans ?_
    refine (Payload.base_step_apply (xb m c ⟨0, h⟩) (wb m c ⟨0, h⟩) (k0_pay1 (F := Ideal)) p q).trans ?_
    rw [Payload.zero_base, zero_add, xw_dot m c ⟨0, h⟩ p q]
    show _ = ∑ s ∈ range 1, _
    rw [sum_range_one]
    rfl
  | n + 1, h, p, q => by
    by_cases h0 : (n + 1) % 8 = 0
    · refine (congrFun (base_reset m c ⟨n + 1, h⟩ h0) (ix2 p q)).trans ?_
      refine (Payload.base_step_apply (xb m c ⟨n + 1, h⟩) (wb m c ⟨n + 1, h⟩) (k0_pay1 (F := Ideal)) p q).trans ?_
      rw [Payload.zero_base, zero_add, xw_dot m c ⟨n + 1, h⟩ p q]
      show dotSeg _ _ _ _ ((n + 1) % 8 * 512) 512 = _
      rw [h0, sum_range_one]
    · refine (congrFun (base_step m c ⟨n + 1, h⟩ h0) (ix2 p q)).trans ?_
      refine (Payload.base_step_apply (xb m c ⟨n + 1, h⟩) (wb m c ⟨n + 1, h⟩) _ p q).trans ?_
      rw [xw_dot m c ⟨n + 1, h⟩ p q]
      have ih := base_eq c n (Nat.lt_of_succ_lt h) p q
      have e1 : n % 8 + 1 = (n + 1) % 8 := by omega
      have e2 : n / 32 = (n + 1) / 32 := by omega
      have e3 : n / 8 % 4 = (n + 1) / 8 % 4 := by omega
      rw [e1, e2, e3] at ih
      show baseAt m c n _ (ix2 p q) + dotSeg _ _ ((n + 1) / 32 * 1024 + p.val) ((n + 1) / 8 % 4 * 1024 + q.val) ((n + 1) % 8 * 512) 512 = _
      rw [ih, sum_range_succ _ ((n + 1) % 8)]

theorem low_eq (c : Dev nD) : ∀ (n : ℕ) (h : n < cfg0.N) (p : Fin 1024) (r : Fin 16),
    lowAt m c n h (ix2 p r)
      = ∑ s ∈ range (n % 8 + 1), dotSeg (Xn m c) (An m c) (n / 32 * 1024 + p.val) r.val (s * 512) 512
  | 0, h, p, r => by
    refine (congrFun (low_reset m c ⟨0, h⟩ rfl) (ix2 p r)).trans ?_
    refine (Payload.low_step_apply (xb m c ⟨0, h⟩) (ab m c ⟨0, h⟩) (k0_pay2 (F := Ideal)) p r).trans ?_
    rw [Payload.zero_low, zero_add, xa_dot m c ⟨0, h⟩ p r]
    show _ = ∑ s ∈ range 1, _
    rw [sum_range_one]
    rfl
  | n + 1, h, p, r => by
    by_cases h0 : (n + 1) % 8 = 0
    · refine (congrFun (low_reset m c ⟨n + 1, h⟩ h0) (ix2 p r)).trans ?_
      refine (Payload.low_step_apply (xb m c ⟨n + 1, h⟩) (ab m c ⟨n + 1, h⟩) (k0_pay2 (F := Ideal)) p r).trans ?_
      rw [Payload.zero_low, zero_add, xa_dot m c ⟨n + 1, h⟩ p r]
      show dotSeg _ _ _ _ ((n + 1) % 8 * 512) 512 = _
      rw [h0, sum_range_one]
    · refine (congrFun (low_step m c ⟨n + 1, h⟩ h0) (ix2 p r)).trans ?_
      refine (Payload.low_step_apply (xb m c ⟨n + 1, h⟩) (ab m c ⟨n + 1, h⟩) _ p r).trans ?_
      rw [xa_dot m c ⟨n + 1, h⟩ p r]
      have ih := low_eq c n (Nat.lt_of_succ_lt h) p r
      have e1 : n % 8 + 1 = (n + 1) % 8 := by omega
      have e2 : n / 32 = (n + 1) / 32 := by omega
      rw [e1, e2] at ih
      show lowAt m c n _ (ix2 p r) + dotSeg _ _ ((n + 1) / 32 * 1024 + p.val) r.val ((n + 1) % 8 * 512) 512 = _
      rw [ih, sum_range_succ _ ((n + 1) % 8)]

/-! ## The output block at a last step -/

/-- At a last contraction step the block written back holds the layer's values for its rows and output features. -/
theorem out_eq (c : Dev nD) (t : Fin cfg0.N) (h7 : t.val % 8 = 7) (p q : Fin 1024) :
    outAt m c t.val t.isLt (ix2 p q)
      = layer (Xn m c) (Wn m c) (biasn m c) (An m c) (Un m c) (t.val / 32 * 1024 + p.val) (t.val / 8 % 4 * 1024 + q.val) := by
  refine (congrFun (out_last_step m c t h7) (ix2 p q)).trans ?_
  refine (Payload.out_apply (ub m c t) (lowAt m c t.val t.isLt) (baseAt m c t.val t.isLt) (biasb m c t) p q).trans ?_
  rw [base_eq m c t.val t.isLt p q, h7]
  have hb : biasb m c t (ix2 (0 : Fin 1) q) = biasn m c (t.val / 8 % 4 * 1024 + q.val) := biasblk_apply m c t q
  rw [hb]
  have hs : ∑ r : Fin 16, lowAt m c t.val t.isLt (ix2 p r) * ub m c t (ix2 q r)
      = ∑ ρ ∈ range 16, (∑ s ∈ range 8, dotSeg (Xn m c) (An m c) (t.val / 32 * 1024 + p.val) ρ (s * 512) 512)
          * Un m c (t.val / 8 % 4 * 1024 + q.val) ρ := by
    rw [Finset.sum_range]
    refine Finset.sum_congr rfl fun r _ => ?_
    have hl := low_eq m c t.val t.isLt p r
    rw [h7] at hl
    exact congrArg₂ (· * ·) hl (bblk_apply m c t q r)
  rw [hs]
  exact layer_blocked _ _ _ _ _ _ _

end Cert.KernelIdeal.Accum

end
-- ==== Proof.Whole.lean ====
/-
  The whole result of the kernel's program, over the extended reals.

  The call writes a 16384 × 4096 array block by block: the block of row-block `i` and column-block `j` is written back
  once, after the last of its eight contraction steps, and the 16 × 4 blocks tile the array; so the array ends holding
  the layer's value at every (row, feature). The program then views it as (8, 2048, 4096): entry (i₀, i₁, i₂) is the
  array's entry at row `2048·i₀ + i₁`, the same row-major position.
-/
import proofs.«153549_j58033598104232_1_alg».proof.Proof.Accum
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.LowRank Cert.KernelIdeal.Steps Cert.KernelIdeal.Blocks Cert.KernelIdeal.Accum

variable (m : (ℓ : Loc nD τ sig) → Buf (Elt Ideal) ℓ) (ρ : Dev nD → PrngReg)

/-- The layer at every (row, output feature) of the 16384 × 4096 array. -/
def outFn (c : Dev nD) : S16384x4096.Idx → EReal :=
  fun i => layer (Xn m c) (Wn m c) (biasn m c) (An m c) (Un m c) (i 0).val (i 1).val

/-- The same as contents of the array the call writes. -/
abbrev outArr (c : Dev nD) : Buf (Elt Ideal) ((c : Thread nD τ).loc main_v2) := outFn m c

/-- What a last contraction step writes back is its block of the layer. -/
theorem flushed_eq (c : Dev nD) (t : Fin cfg0.N) (hf : (cfg0.win 5).flush t = true) :
    (dats m 0 c).flushed 5 t = ((cfg0.win 5).blk t).view.read (Elt Ideal) (outArr m c) := by
  have h7 : t.val % 8 = 7 := (flush0_5 t).mp hf
  obtain ⟨-, -, -, -, -, -, -, -, -, -, e0, e1⟩ := idx_facts t
  have ht := t_lt t
  show (cfg0.win 5).cut (grid0.coords t) ((dats m 0 c).after 5 t) = _
  rw [after0_5]
  funext j
  obtain ⟨p, q, rfl⟩ : ∃ (p q : Fin 1024), j = ix2 p q := ⟨j 0, j 1, eq_ix2 j⟩
  rw [View.read_apply]
  show outAt m c t.val t.isLt (ix2 p q) = outFn m c (((cfg0.win 5).blk t).view.emb (ix2 p q))
  rw [out_eq m c t h7 p q]
  unfold outFn
  refine congrArg₂ (layer (Xn m c) (Wn m c) (biasn m c) (An m c) (Un m c)) ?_ ?_
  · show _ = win0_5.index t (0 : Fin 2) * 1024 + 1 * p.val; rw [e0]; omega
  · show _ = win0_5.index t (1 : Fin 2) * 1024 + 1 * q.val; rw [e1]; omega

/-- Every entry of the array is in the block some last contraction step writes back. -/
theorem cover (i : S16384x4096.Idx) :
    ∃ t : Fin cfg0.N, (cfg0.win 5).flush t = true ∧ i ∈ ((cfg0.win 5).blk t).view.set := by
  have h0 : (i 0).val < 16384 := (i 0).isLt
  have h1 : (i 1).val < 4096 := (i 1).isLt
  have hN : cfg0.N = 512 := N_0
  have htn : (i 0).val / 1024 * 32 + (i 1).val / 1024 * 8 + 7 < cfg0.N := by rw [hN]; omega
  refine ⟨⟨_, htn⟩, (flush0_5 _).mpr (by show ((i 0).val / 1024 * 32 + (i 1).val / 1024 * 8 + 7) % 8 = 7; omega), ?_⟩
  obtain ⟨-, -, -, -, -, -, -, -, -, -, e0, e1⟩ := idx_facts ⟨_, htn⟩
  show i ∈ ((View.whole main_v2).slice (win0_5.rect ⟨_, htn⟩)).set
  rw [View.set_slice_whole, Rect.mem_set_unit]
  intro a
  match a with
  | ⟨0, _⟩ =>
    show win0_5.index ⟨_, htn⟩ (0 : Fin 2) * 1024 ≤ (i 0).val ∧ (i 0).val < win0_5.index ⟨_, htn⟩ (0 : Fin 2) * 1024 + 1024
    rw [e0]
    show ((i 0).val / 1024 * 32 + (i 1).val / 1024 * 8 + 7) / 32 * 1024 ≤ (i 0).val
      ∧ (i 0).val < ((i 0).val / 1024 * 32 + (i 1).val / 1024 * 8 + 7) / 32 * 1024 + 1024
    omega
  | ⟨1, _⟩ =>
    show win0_5.index ⟨_, htn⟩ (1 : Fin 2) * 1024 ≤ (i 1).val ∧ (i 1).val < win0_5.index ⟨_, htn⟩ (1 : Fin 2) * 1024 + 1024
    rw [e1]
    show ((i 0).val / 1024 * 32 + (i 1).val / 1024 * 8 + 7) / 8 % 4 * 1024 ≤ (i 1).val
      ∧ (i 1).val < ((i 0).val / 1024 * 32 + (i 1).val / 1024 * 8 + 7) / 8 % 4 * 1024 + 1024
    omega

/-- The array after the call. -/
theorem final (c : Dev nD) : (dats m 0 c).arrAt 5 cfg0.N = outArr m c :=
  (dats m 0 c).arrAt_eq_of_cover 5 (outArr m c) (flushed_eq m c) cover

/-- The program's result: the array viewed as (8, 2048, 4096). -/
theorem tail_eq (c : Dev nD) :
    Pipeline.afterTail₀ cfgs (dats m) 0 (V0 m) [hostOps1] c main_v3
      = result (argX m c) (argW m c) (argBias m c) (argA m c) (argB m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = outArr m c :=
    (Pipeline.withArrays_arr spec0 launch0.win.arr_inj c _ _ 5).trans (final m c)
  rw [hw]
  funext i
  obtain ⟨i0, i1, i2, rfl⟩ : ∃ (i0 : Fin 8) (i1 : Fin 2048) (i2 : Fin 4096), i = ix3 i0 i1 i2 := ⟨i 0, i 1, i 2, eq_ix3 i⟩
  rw [result_ix3]
  show shapeCast S8x2048x4096 (outFn m c) shapeCasts_S16384x4096_S8x2048x4096 (ix3 i0 i1 i2) = _
  have hi0 := i0.isLt
  have hi1 := i1.isLt
  refine (shapeCast_apply (outFn m c) _ (ix3 i0 i1 i2) (ix2 (⟨i0.val * 2048 + i1.val, by omega⟩ : Fin 16384) i2) ?_).trans rfl
  rw [Shape.rowMajor_val_three, Shape.rowMajor_val_two]
  rfl

/-- The program's run, read: its result is the layer's value of its arguments, which it leaves unchanged. -/
theorem run : θ_run defs (onTc (τ := τ) (main (F := Ideal))) ⟨m, fun _ => 0, ρ⟩ fun r => ∀ c : Dev nD,
      r.2.mem ((c.tc : Thread nD τ).loc main_v3) = result (argX m c) (argW m c) (argBias m c) (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩) (run_main m ρ)

end Cert.KernelIdeal.Whole

end
-- ==== Proof.RefValue.lean ====
/-
  The reference, read index by index: at (i₀, i₁, i₂) it is the low-rank-adapted layer at row `2048·i₀ + i₁` (the
  activations' two leading axes flattened) and output feature `i₂`. Each of its three contractions is a sum over one
  contracted axis, the bias is broadcast along the rows, and the scale `2.0` multiplies the adapter's product.
-/
import proofs.«153549_j58033598104232_1_alg».proof.Proof.Gen.ReferenceIdeal.Read
import proofs.«153549_j58033598104232_1_alg».proof.Proof.Spec

noncomputable section

namespace Cert.ReferenceIdeal.RefValue

open Cert.ReferenceIdeal Cert.ReferenceIdeal.Gen Cert.ReferenceIdeal.Read Cert.LowRank
open Idealize.ShloMosaic Idealize.ShloMosaic.ValueIdx Finset

/-- The reference's result stage is the layer. -/
theorem val_eq_result (x : (⟨3, ![8, 2048, 4096]⟩ : Shape).Idx → EReal) (w : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal) :
    val_main_v8 (F := Ideal) x w b A B = result x w b A B := by
  funext i
  obtain ⟨i0, i1, i2, rfl⟩ : ∃ (i0 : Fin 8) (i1 : Fin 2048) (i2 : Fin 4096), i = ix3 i0 i1 i2 := ⟨i 0, i 1, i 2, eq_ix3 i⟩
  rw [val_main_v8_apply, val_main_v3_apply, val_main_v0_apply, val_main_v2_apply, val_main_v1_apply, val_main_v7_apply,
    val_main_v6_apply, val_main_cst_apply, val_main_v5_apply]
  simp only [val_main_v4_apply]
  have hx : ∀ k : Fin 4096, x (lidx_main_v0 (ix3 i0 i1 i2) k) = rows x (i0.val * 2048 + i1.val) k.val :=
    fun k => rows_at x i0 i1 k _ rfl rfl rfl
  have hw : ∀ k : Fin 4096, w (ridx_main_v0 (ix3 i0 i1 i2) k) = rd2 w i2.val k.val :=
    fun k => mat_at w _ _ _ i2.isLt k.isLt rfl rfl
  have hb : b (idx_main_v1 (idx_main_v2 (ix3 i0 i1 i2))) = rd1 b i2.val := vec_at b _ _ i2.isLt rfl
  have hx' : ∀ (ρ : Fin 16) (k : Fin 4096),
      x (lidx_main_v4 (lidx_main_v5 (ix3 i0 i1 i2) ρ) k) = rows x (i0.val * 2048 + i1.val) k.val :=
    fun ρ k => rows_at x i0 i1 k _ rfl rfl rfl
  have hA : ∀ (ρ : Fin 16) (k : Fin 4096), A (ridx_main_v4 (lidx_main_v5 (ix3 i0 i1 i2) ρ) k) = rd2 A ρ.val k.val :=
    fun ρ k => mat_at A _ _ _ ρ.isLt k.isLt rfl rfl
  have hB : ∀ ρ : Fin 16, B (ridx_main_v5 (ix3 i0 i1 i2) ρ) = rd2 B i2.val ρ.val :=
    fun ρ => mat_at B _ _ _ i2.isLt ρ.isLt rfl rfl
  simp only [hx, hw, hb, hx', hA, hB]
  rw [result_ix3]
  unfold layer dotSeg
  simp only [Nat.zero_add, Finset.sum_range, Ideal.addf_def, Ideal.mulf_def, Ideal.ofBits_def]

end Cert.ReferenceIdeal.RefValue

end
-- ==== Proof.lean ====
/-
  A linear layer with a low-rank adapter: the kernel against its reference, over the extended reals.

  Both programs compute, for activations `x` (8 × 2048 rows of 4096), a weight `w`, a bias `b` and the adapter's factors
  `A` (16 × 4096) and `B` (4096 × 16),

      out[r, o] = (∑_d x[r,d]·w[o,d] + b[o]) + 2 · ∑_ρ (∑_d x[r,d]·A[ρ,d]) · B[o,ρ].

  The reference takes each contraction whole. The kernel takes the 4096 contraction coordinates in eight stretches of
  512, adding each stretch's products to two running totals that start from zero, and builds each 1024 × 1024 output
  block after the last stretch. Over the extended reals addition is commutative and associative, so the eight
  stretches added in order are the whole sum (Proof/Spec.lean, `layer_blocked`); no finiteness of the inputs is used.
  The changes of float format in the kernel are the identity here.

  The modules: Spec (the mathematics), Pieces and Steps (what the body leaves, step by step), Payload (the body's
  arithmetic at an index), Blocks (the staged blocks in terms of the arguments), Accum (the totals in closed form, by
  induction on the grid point), Whole (the array after the call and the program's result), RefValue (the reference
  read index by index).

  The three frames are the generated ones (the reference's is its generated run with the result dropped); the
  idealization rewrote nothing, so `preserves` is trivial.
-/
import proofs.«153549_j58033598104232_1_alg».proof.Defs
import proofs.«153549_j58033598104232_1_alg».proof.Proof.Gen.Kernel
import proofs.«153549_j58033598104232_1_alg».proof.Proof.Gen.Kernel.Skeleton
import proofs.«153549_j58033598104232_1_alg».proof.Proof.Gen.Kernel.Launch
import proofs.«153549_j58033598104232_1_alg».proof.Proof.Gen.Kernel.Points
import proofs.«153549_j58033598104232_1_alg».proof.Proof.Gen.Kernel.Frame
import proofs.«153549_j58033598104232_1_alg».proof.Proof.Gen.KernelIdeal
import proofs.«153549_j58033598104232_1_alg».proof.Proof.Gen.KernelIdeal.Skeleton
import proofs.«153549_j58033598104232_1_alg».proof.Proof.Gen.KernelIdeal.Launch
import proofs.«153549_j58033598104232_1_alg».proof.Proof.Gen.KernelIdeal.Points
import proofs.«153549_j58033598104232_1_alg».proof.Proof.Gen.KernelIdeal.Frame
import proofs.«153549_j58033598104232_1_alg».proof.Proof.Gen.ReferenceIdeal
import proofs.«153549_j58033598104232_1_alg».proof.Proof.Gen.ReferenceIdeal.Run
import proofs.«153549_j58033598104232_1_alg».proof.Proof.Gen.ReferenceIdeal.Read
import proofs.«153549_j58033598104232_1_alg».proof.Proof.Gen.Pre_finite_inputs
import proofs.«153549_j58033598104232_1_alg».proof.Proof.Whole
import proofs.«153549_j58033598104232_1_alg».proof.Proof.RefValue
import Idealize.ShloMosaic.Adequacy
import Idealize.ShloMosaic.Init

noncomputable section

namespace Cert.Proof

open Idealize.ShloMosaic Idealize.SL.Sem Cert.Kernel

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the layer's value of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.LowRank.result (Cert.KernelIdeal.Blocks.argX m c) (Cert.KernelIdeal.Blocks.argW m c)
    (Cert.KernelIdeal.Blocks.argBias m c) (Cert.KernelIdeal.Blocks.argA m c) (Cert.KernelIdeal.Blocks.argB m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2.1,
    (hagree c).2.2.2.2]
  exact Cert.ReferenceIdeal.RefValue.val_eq_result _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
